-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S1024x512 : Shape := ⟨2, ![1024, 512]⟩
abbrev S1024x1024 : Shape := ⟨2, ![1024, 1024]⟩
abbrev S1x1024 : Shape := ⟨2, ![1, 1024]⟩
abbrev S1x512 : Shape := ⟨2, ![1, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_16 : BitVec 32 := 0#32
  let v24 : BitVec 1 := Scalar.cmpi .ne v23 c0_i32_16
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  broadcasts_S1x1024_S1024x1024 : S1x1024.Broadcasts S1024x1024
  dot_S1024x512_S1024x512_S1024x1024_1_1_0_0_n_n_wf : DotDims.WF S1024x512 S1024x512 S1024x1024 [1] [1] [0] [0] [] []
  dot_S1x512_S1024x512_S1x1024_1_1_0_0_n_n_wf : DotDims.WF S1x512 S1024x512 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.PiecesIdeal.lean ====
/-
  What each case of the body leaves behind, as the body's own arithmetic.

  The body keeps two running sums in scratch memory: a 1024×1024 block of partial products `x·Wᵀ`, and a 1×1024 row of
  partial row sums of `y∘W`. At the first point of a run of eight it clears both and adds the point's contribution;
  at the others it adds to what the point before left; at the last it also writes the output block from the two sums
  it has just stored. Each lemma below says that what the frame's run found in a buffer IS the corresponding payload of
  the body, applied to the point's input blocks and to what the scratch held before.
-/
import proofs.«149680_j66468913872924_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every access of the body is through the whole buffer: a rectangle at offsets zero. -/
theorem zeros2 : (![0, 0] : Fin 2 → Nat) = fun _ => 0 := funext fun a => by fin_cases a <;> rfl

/-- First point of a run: the block of partial products is the point's product added to the cleared block. -/
theorem prodA (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : cond0_0 i) (hc1 : ¬cond0_1 i)
    (x0 : Vec F S1024x512 .f32) (x1 : Vec F S1024x512 .f32) (x2 : Vec F S1024x512 .f32) :
    sout0_A_0 c i arg3 harg3 arg4 harg4 arg5 harg5 arg6 harg6 arg7 harg7 arg8 harg8 hc0 hc1 x0 x1 x2 = k0_pay3 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2)]
  unfold kernelRun0_A
  dsimp only
  sl_unfold_words
  rw [View.canon_cons_unit_zero (S := S1024x1024) zeros2, View.readCov_unit_zero (S := S1024x1024) _ zeros2]
  simp only [View.readAt_eq_ld, harg3.read_unread, harg4.read_unread, View.ld_unit_zero (S := S1024x512) zeros2]

/-- First point of a run: the row of partial row sums is the point's row sums added to the cleared row. -/
theorem rowA (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : cond0_0 i) (hc1 : ¬cond0_1 i)
    (x0 : Vec F S1024x512 .f32) (x1 : Vec F S1024x512 .f32) (x2 : Vec F S1024x512 .f32) :
    sout0_A_1 c i arg3 harg3 arg4 harg4 arg5 harg5 arg6 harg6 arg7 harg7 arg8 harg8 hc0 hc1 x0 x1 x2 = k0_pay4 x1 x2 (k0_pay2 (F := F)) := by
  unfold sout0_A_1
  rw [View.read_writes_eq_canon _ _ _ (scover0_A_1 c i arg3 harg3 arg4 harg4 arg5 harg5 arg6 harg6 arg7 harg7 arg8 harg8 hc0 hc1 x0 x1 x2)]
  unfold kernelRun0_A
  dsimp only
  sl_unfold_words
  rw [View.canon_cons_unit_zero (S := S1x1024) zeros2, View.readCov_unit_zero (S := S1x1024) _ zeros2]
  simp only [View.readAt_eq_ld, harg4.read_unread, harg5.read_unread, View.ld_unit_zero (S := S1024x512) zeros2]

/-- A middle point: the point's product added to what the block held. -/
theorem prodB (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : ¬cond0_0 i) (hc1 : ¬cond0_1 i)
    (x0 : Vec F S1024x512 .f32) (x1 : Vec F S1024x512 .f32) (x2 : Vec F S1024x512 .f32) (xs0 : Vec F S1024x1024 .f32) (xs1 : Vec F S1x1024 .f32) :
    sout0_B_0 c i arg3 harg3 arg4 harg4 arg5 harg5 arg6 harg6 arg7 harg7 arg8 harg8 hc0 hc1 x0 x1 x2 xs0 xs1 = k0_pay3 x0 x1 xs0 := by
  unfold sout0_B_0
  rw [View.read_writes_eq_canon _ _ _ (scover0_B_0 c i arg3 harg3 arg4 harg4 arg5 harg5 arg6 harg6 arg7 harg7 arg8 harg8 hc0 hc1 x0 x1 x2 xs0 xs1)]
  unfold kernelRun0_B
  dsimp only
  sl_unfold_words
  rw [View.canon_unit_zero (S := S1024x1024) zeros2]
  simp only [View.readAt_eq_ld, harg3.read_unread, harg4.read_unread, harg7.read_unread, View.ld_unit_zero (S := S1024x512) zeros2, View.ld_unit_zero (S := S1024x1024) zeros2]

/-- A middle point: the point's row sums added to what the row held. -/
theorem rowB (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : ¬cond0_0 i) (hc1 : ¬cond0_1 i)
    (x0 : Vec F S1024x512 .f32) (x1 : Vec F S1024x512 .f32) (x2 : Vec F S1024x512 .f32) (xs0 : Vec F S1024x1024 .f32) (xs1 : Vec F S1x1024 .f32) :
    sout0_B_1 c i arg3 harg3 arg4 harg4 arg5 harg5 arg6 harg6 arg7 harg7 arg8 harg8 hc0 hc1 x0 x1 x2 xs0 xs1 = k0_pay4 x1 x2 xs1 := by
  unfold sout0_B_1
  rw [View.read_writes_eq_canon _ _ _ (scover0_B_1 c i arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x1024) zeros2]
  simp only [View.readAt_eq_ld, harg4.read_unread, harg5.read_unread, harg8.read_unread, View.ld_unit_zero (S := S1024x512) zeros2, View.ld_unit_zero (S := S1x1024) zeros2]

/-- The last point of a run updates the block as a middle point does. -/
theorem prodC (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : ¬cond0_0 i) (hc1 : cond0_1 i)
    (x0 : Vec F S1024x512 .f32) (x1 : Vec F S1024x512 .f32) (x2 : Vec F S1024x512 .f32) (xs0 : Vec F S1024x1024 .f32) (xs1 : Vec F S1x1024 .f32) :
    sout0_C_0 c i arg3 harg3 arg4 harg4 arg5 harg5 arg6 harg6 arg7 harg7 arg8 harg8 hc0 hc1 x0 x1 x2 xs0 xs1 = k0_pay3 x0 x1 xs0 := by
  unfold sout0_C_0
  rw [View.read_writes_eq_canon _ _ _ (scover0_C_0 c i arg3 harg3 arg4 harg4 arg5 harg5 arg6 harg6 arg7 harg7 arg8 harg8 hc0 hc1 x0 x1 x2 xs0 xs1)]
  unfold kernelRun0_C
  dsimp only
  sl_unfold_words
  rw [View.canon_unit_zero (S := S1024x1024) zeros2]
  simp only [View.readAt_eq_ld, harg3.read_unread, harg4.read_unread, harg7.read_unread, View.ld_unit_zero (S := S1024x512) zeros2, View.ld_unit_zero (S := S1024x1024) zeros2]

/-- The last point of a run updates the row as a middle point does. -/
theorem rowC (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : ¬cond0_0 i) (hc1 : cond0_1 i)
    (x0 : Vec F S1024x512 .f32) (x1 : Vec F S1024x512 .f32) (x2 : Vec F S1024x512 .f32) (xs0 : Vec F S1024x1024 .f32) (xs1 : Vec F S1x1024 .f32) :
    sout0_C_1 c i arg3 harg3 arg4 harg4 arg5 harg5 arg6 harg6 arg7 harg7 arg8 harg8 hc0 hc1 x0 x1 x2 xs0 xs1 = k0_pay4 x1 x2 xs1 := by
  unfold sout0_C_1
  rw [View.read_writes_eq_canon _ _ _ (scover0_C_1 c i arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x1024) zeros2]
  simp only [View.readAt_eq_ld, harg4.read_unread, harg5.read_unread, harg8.read_unread, View.ld_unit_zero (S := S1024x512) zeros2, View.ld_unit_zero (S := S1x1024) zeros2]

/-- The last point of a run writes the output block from the two sums it has just stored: zero minus (the block of
    products minus the row of row sums spread over the rows). -/
theorem outC (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : ¬cond0_0 i) (hc1 : cond0_1 i)
    (x0 : Vec F S1024x512 .f32) (x1 : Vec F S1024x512 .f32) (x2 : Vec F S1024x512 .f32) (xs0 : Vec F S1024x1024 .f32) (xs1 : Vec F S1x1024 .f32) :
    out0_C_3 c i arg3 harg3 arg4 harg4 arg5 harg5 arg6 harg6 arg7 harg7 arg8 harg8 hc0 hc1 x0 x1 x2 xs0 xs1 = k0_pay5 (k0_pay3 x0 x1 xs0) (k0_pay4 x1 x2 xs1) := by
  unfold out0_C_3
  rw [View.read_writes_eq_canon _ _ _ (cover0_C_3 c i arg3 harg3 arg4 harg4 arg5 harg5 arg6 harg6 arg7 harg7 arg8 harg8 hc0 hc1 x0 x1 x2 xs0 xs1)]
  unfold kernelRun0_C
  dsimp only
  sl_unfold_words
  rw [View.canon_unit_zero (S := S1024x1024) zeros2]
  simp only [View.readCov_unit_zero (S := S1024x1024) _ zeros2, View.readCov_unit_zero (S := S1x1024) _ zeros2, View.readAt_eq_ld, harg3.read_unread, harg4.read_unread, harg5.read_unread, harg7.read_unread, harg8.read_unread, View.ld_unit_zero (S := S1024x512) zeros2, View.ld_unit_zero (S := S1024x1024) zeros2, View.ld_unit_zero (S := S1x1024) zeros2]

end Cert.KernelIdeal.Pieces

end
-- ==== Proof.LibDotNT.lean ====
/-
  A matrix product that contracts the SECOND axis of both operands — `[M,K]` with `[N,K]`, the product of the left
  operand with the transpose of the right — read at an index at the ideal instance: the entry at `(p, c)` is
  `Σ k, lhs (p, k) · rhs (c, k)`. The same sum is the vector unit's product into a zero accumulator and the host's
  `dot_general` with these dimension numbers, so the two read alike.
-/
import Idealize.ShloMosaic.PureOps.Ideal.Laws
import Idealize.ShloMosaic.Lib.ValueIdx

noncomputable section

namespace Cert.DotNT

open Idealize.ShloMosaic Idealize.ShloMosaic.ValueIdx

variable {M K N : ℕ} {φ₁ φ₂ : FTy}

/-- The dimension numbers: contract axis 1 of both operands; the rows of the left operand, then the rows of the right
    operand, index the result. -/
abbrev dims (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

/-- The contraction's sum, re-indexed by the one contracted coordinate: at `(p, c)` the left operand is read along its
    row `p` and the right operand along its row `c`. -/
theorem sum_contr (wf : DotDims.WF ⟨2, ![M, K]⟩ ⟨2, ![N, K]⟩ ⟨2, ![M, N]⟩ [1] [1] [0] [0] [] [])
    (lhs : FVec Ideal ⟨2, ![M, K]⟩ φ₁) (rhs : FVec Ideal ⟨2, ![N, K]⟩ φ₂) (p : Fin M) (c : Fin N) :
    ∑ q : (dims wf).contr.Idx, lhs ((dims wf).lhsIdx (ix2 p c) q) * rhs ((dims wf).rhsIdx (ix2 p c) q)
      = ∑ k : Fin K, lhs (ix2 p k) * rhs (ix2 c k) := by
  set D : DotDims ⟨2, ![M, K]⟩ ⟨2, ![N, K]⟩ ⟨2, ![M, N]⟩ := dims wf with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil),
      dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (i 1).val := by
    intro i q
    unfold DotDims.rhsIdx
    rw [dif_neg (show ¬(0 : Fin 2) ∈ D.rhsBatch from List.not_mem_nil),
      dif_pos (show (0 : Fin 2) ∈ D.rhsNonContracting from List.mem_singleton.mpr rfl)]
    rfl
  have r1 : ∀ (i : (⟨2, ![M, N]⟩ : Shape).Idx) (q : D.contr.Idx), (D.rhsIdx i q 1).val = (q ⟨0, Nat.one_pos⟩).val :=
    fun i q => D.rhsIdx_val_of_single rfl i q
  rw [← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 c k := funext fun ax => Fin.ext (by
    match ax with
    | ⟨0, _⟩ => exact r0 _ _
    | ⟨1, _⟩ => exact (r1 _ _).trans hk)
  rw [el, er]

/-- The vector unit's product into the zero accumulator, at `(p, c)`. -/
theorem matmul_apply (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (c : Fin N) :
    FloatOps.matmul (dims wf) prec lhs rhs (constant ⟨2, ![M, N]⟩ .f32 0x00000000#32) (ix2 p c)
      = ∑ k : Fin K, lhs (ix2 p k) * rhs (ix2 c k) :=
  (Ideal.matmul_constant_zero_apply (dims wf) prec lhs rhs (ix2 p c)).trans (sum_contr wf lhs rhs p c)

/-- The host's `dot_general` with the same dimension numbers, at `(p, c)`. -/
theorem dotGeneral_apply (wf : DotDims.WF ⟨2, ![M, K]⟩ ⟨2, ![N, K]⟩ ⟨2, ![M, N]⟩ [1] [1] [0] [0] [] [])
    (prec : Option ContractPrecision) (sched : HostSchedule) (lhs : FVec Ideal ⟨2, ![M, K]⟩ φ₁)
    (rhs : FVec Ideal ⟨2, ![N, K]⟩ φ₂) (p : Fin M) (c : Fin N) :
    FloatOps.dotGeneral (dims wf) prec sched lhs rhs (ix2 p c) = ∑ k : Fin K, lhs (ix2 p k) * rhs (ix2 c k) :=
  (Ideal.dotGeneral_apply (dims wf) prec sched lhs rhs (ix2 p c)).trans (sum_contr wf lhs rhs p c)

end Cert.DotNT

end
-- ==== Proof.LibBlockSum.lean ====
/-
  Sums over a range cut into equal blocks.

  A sum over `B * N` consecutive naturals is the sum, over the `N` blocks of length `B`, of each block's sum. Only the
  commutative-monoid structure of the values is used, so the statement holds on the extended reals with no finiteness
  assumption.
-/
import Mathlib.Algebra.BigOperators.Intervals
import Mathlib.Algebra.BigOperators.Fin

namespace Cert.BlockSum

/-- The sum of `f` over `[0, B * N)` is the sum over the blocks `b < N` of the sums of `f` over `[B * b, B * b + B)`. -/
theorem sum_range_blocks {M : Type*} [AddCommMonoid M] (f : ℕ → M) (B : ℕ) :
    ∀ N : ℕ, ∑ b ∈ Finset.range N, ∑ k ∈ Finset.range B, f (B * b + k) = ∑ k ∈ Finset.range (B * N), f k
  | 0 => by simp
  | N + 1 => by
    rw [Finset.sum_range_succ, sum_range_blocks f B N, Nat.mul_succ, Finset.sum_range_add]

end Cert.BlockSum
-- ==== Proof.Spec.lean ====
/-
  The function both programs compute, and the law that joins their two arrangements.

  For square arrays `x`, `y`, `W` of side 4096 the result at `(r, c)` is

      - ( Σ k, x (r, k) · W (c, k)  -  Σ k, y (c, k) · W (c, k) ).

  One program forms each of the two sums whole; the other cuts the 4096 values of `k` into 8 blocks of 512, sums a block
  at a time into an accumulator that starts at zero, multiplies each term of the second sum by one, and negates by
  subtracting from zero. Regrouping a finite sum, adding zero, multiplying by one and `0 - z = -z` hold for every
  extended real, so the two agree without any assumption that the entries are finite.
-/
import Idealize.ShloMosaic.PureOps.Ideal.Laws
import Idealize.ShloMosaic.Lib.ValueIdx
import proofs.«149680_j66468913872924_1_alg».proof.Proof.LibBlockSum

noncomputable section

namespace Cert.Spec

open Idealize.ShloMosaic Idealize.ShloMosaic.ValueIdx

/-- A square array of side 4096 at the ideal instance. -/
abbrev Mat : Type := (⟨2, ![4096, 4096]⟩ : Shape).Idx → EReal

/-- The entry of an array at natural-number coordinates (zero outside the array): sums over the contracted axis are
    written over ranges of naturals, where cutting a range into blocks is one lemma. -/
def ent (a : Mat) (r c : ℕ) : EReal := if h : r < 4096 ∧ c < 4096 then a (ix2 ⟨r, h.1⟩ ⟨c, h.2⟩) else 0

theorem ent_eq (a : Mat) (r c : Fin 4096) : ent a r.val c.val = a (ix2 r c) := dif_pos ⟨r.isLt, c.isLt⟩

theorem ent_of_lt (a : Mat) {r c : ℕ} (hr : r < 4096) (hc : c < 4096) : ent a r c = a (ix2 ⟨r, hr⟩ ⟨c, hc⟩) :=
  dif_pos ⟨hr, hc⟩

/-- The result at row `r`, column `c`. -/
def Gat (x y W : Mat) (r c : Fin 4096) : EReal :=
  -((∑ k : Fin 4096, x (ix2 r k) * W (ix2 c k)) - ∑ k : Fin 4096, y (ix2 c k) * W (ix2 c k))

/-- The result array. -/
def G (x y W : Mat) : Mat := fun i => Gat x y W (i 0) (i 1)

theorem G_apply (x y W : Mat) (r c : Fin 4096) : G x y W (ix2 r c) = Gat x y W r c := rfl

/-- The ideal value of the word `0x3F800000` is one. -/
theorem ofBits_one_f32 : Ideal.ofBits .f32 0x3F800000#32 = 1 := by
  simp [Ideal.ofBits, Ideal.ieee]
  rw [← EReal.coe_mul, ← EReal.coe_one]
  exact congrArg _ (by norm_num)

/-- A row-by-row product summed over the whole contracted axis, written over naturals, is the sum over the axis. -/
theorem sum_ent (a b : Mat) (r c : Fin 4096) :
    ∑ k ∈ Finset.range 4096, ent a r.val k * ent b c.val k = ∑ k : Fin 4096, a (ix2 r k) * b (ix2 c k) := by
  rw [Finset.sum_range]
  exact Finset.sum_congr rfl fun k _ => by rw [ent_eq, ent_eq]

/-- Eight blocks of 512 make the whole axis. -/
theorem sum_blocks_ent (a b : Mat) (r c : Fin 4096) :
    ∑ s ∈ Finset.range 8, ∑ k ∈ Finset.range 512, ent a r.val (512 * s + k) * ent b c.val (512 * s + k)
      = ∑ k : Fin 4096, a (ix2 r k) * b (ix2 c k) :=
  (Cert.BlockSum.sum_range_blocks (fun k => ent a r.val k * ent b c.val k) 512 8).trans (sum_ent a b r c)

/-- THE LAW. The blocked, zero-started, subtract-from-zero arrangement is the result. -/
theorem blocked_eq (x y W : Mat) (r c : Fin 4096) :
    0 - ((0 + ∑ s ∈ Finset.range 8, ∑ k ∈ Finset.range 512, ent x r.val (512 * s + k) * ent W c.val (512 * s + k))
        - (0 + ∑ s ∈ Finset.range 8, ∑ k ∈ Finset.range 512, ent y c.val (512 * s + k) * ent W c.val (512 * s + k)))
      = Gat x y W r c := by
  rw [sum_blocks_ent, sum_blocks_ent, zero_add, zero_add, zero_sub]
  rfl

end Cert.Spec

end
-- ==== Proof.PayIdeal.lean ====
/-
  The body's arithmetic read at an index, at the ideal instance.

  With blocks `a` (of `x`), `w` (of `W`), `b` (of `y`), a block of partial products `P` and a row of partial row sums `R`:
  the cleared block and row are zero; the updated block at `(p, q)` is `P (p, q) + Σ k, a (p, k) · w (q, k)` (rounding
  the factors to a narrower format is the identity on ideal values); the updated row at `q` is
  `R q + Σ k, b (q, k) · w (q, k)` (the product with a row of ones contracts each row of `b∘w`, and `1 · t = t`);
  the output at `(p, q)` is `0 - (P (p, q) - R q)`.
-/
import proofs.«149680_j66468913872924_1_alg».proof.Proof.Gen.KernelIdeal.Skeleton
import proofs.«149680_j66468913872924_1_alg».proof.Proof.LibDotNT
import proofs.«149680_j66468913872924_1_alg».proof.Proof.Spec
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.TcCoe Idealize.ShloMosaic.ValueIdx

variable [Cert.KernelIdeal.Facts]

/-- The cleared block of partial products is zero everywhere. -/
theorem cleared_block (j : S1024x1024.Idx) : k0_pay1 (F := Ideal) j = 0 := by
  unfold k0_pay1
  refine (congrFun (shapeCast_self _ _) j).trans ?_
  exact Ideal.ofBits_zero_f32

/-- The cleared row of partial row sums is zero everywhere. -/
theorem cleared_row (j : S1x1024.Idx) : k0_pay2 (F := Ideal) j = 0 := by
  unfold k0_pay2
  refine (congrFun (shapeCast_self _ _) j).trans ?_
  exact Ideal.ofBits_zero_f32

/-- One step of the block of partial products: add the contraction of row `p` of `a` with row `q` of `w`. -/
theorem prod_step (a w : Vec Ideal S1024x512 .f32) (P : Vec Ideal S1024x1024 .f32) (p q : Fin 1024) :
    k0_pay3 a w P (ix2 p q) = P (ix2 p q) + ∑ k : Fin 512, a (ix2 p k) * w (ix2 q k) := by
  unfold k0_pay3
  refine (congrFun (shapeCast_self _ _) (ix2 p q)).trans ?_
  refine congrArg (P (ix2 p q) + ·) ?_
  exact Cert.DotNT.matmul_apply _ none _ _ p q

/-- One step of the row of partial row sums: add the sum over row `q` of `b∘w`. -/
theorem row_step (w b : Vec Ideal S1024x512 .f32) (R : Vec Ideal S1x1024 .f32) (q : Fin 1024) :
    k0_pay4 w b R (ix2 (0 : Fin 1) q) = R (ix2 (0 : Fin 1) q) + ∑ k : Fin 512, b (ix2 q k) * w (ix2 q k) := by
  unfold k0_pay4
  refine (congrFun (shapeCast_self _ _) (ix2 (0 : Fin 1) q)).trans ?_
  refine congrArg (R (ix2 (0 : Fin 1) q) + ·) ?_
  refine (Cert.DotNT.matmul_apply _ none _ _ (0 : Fin 1) q).trans ?_
  refine Finset.sum_congr rfl fun k _ => ?_
  show Ideal.ofBits .f32 0x3F800000#32 * (b (ix2 q k) * w (ix2 q k)) = _
  rw [Cert.Spec.ofBits_one_f32, one_mul]

/-- The output block from the two sums: zero minus (the product entry minus the row sum of its column's row). -/
theorem out_apply (P : Vec Ideal S1024x1024 .f32) (R : Vec Ideal S1x1024 .f32) (p q : Fin 1024) :
    k0_pay5 P R (ix2 p q) = 0 - (P (ix2 p q) - R (ix2 (0 : Fin 1) q)) := by
  unfold k0_pay5
  exact congrArg₂ (· - ·) Ideal.ofBits_zero_f32
    (congrArg (P (ix2 p q) - ·) (broadcastTo_1b_ab_apply R broadcasts_S1x1024_S1024x1024 p q))

end Cert.KernelIdeal.Pay

end
-- ==== Proof.ValueIdeal.lean ====
/-
  The idealized kernel's result array, as one function of its arguments.

  The grid has 4·4·8 points, numbered `t = 32·bi + 8·bj + s`: point `t` stages rows `1024·bi …` and columns `512·s …` of
  `x`, rows `1024·bj …` and columns `512·s …` of `W` and of `y`, and (at `s = 7`) writes rows `1024·bi …`, columns
  `1024·bj …` of the output. Over a run of eight points (`s = 0 … 7`, fixed `bi`, `bj`) the scratch block accumulates
  `Σ_{s' ≤ s} Σ_{k < 512} x (1024·bi + p, 512·s' + k) · W (1024·bj + q, 512·s' + k)` and the scratch row
  `Σ_{s' ≤ s} Σ_{k < 512} y (1024·bj + q, 512·s' + k) · W (1024·bj + q, 512·s' + k)`, each from zero; the block written
  at `s = 7` is zero minus their difference, which is the specification's value by `Cert.Spec.blocked_eq`; the sixteen
  written blocks tile the output.
-/
import proofs.«149680_j66468913872924_1_alg».proof.Proof.Gen.KernelIdeal.Value
import proofs.«149680_j66468913872924_1_alg».proof.Proof.PiecesIdeal
import proofs.«149680_j66468913872924_1_alg».proof.Proof.PayIdeal
import proofs.«149680_j66468913872924_1_alg».proof.Proof.Spec

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Spec (ent Mat)

variable (m : (ℓ : Loc nD τ sig) → Buf (Elt Ideal) ℓ) (ρ : Dev nD → PrngReg)

/-! ## Names of literal type for the arrays and the staged blocks -/

/-- `x`, `W`, `y` as the region finds them. -/
abbrev xarr (c : Dev nD) : Mat := V m c main_arg0
abbrev warr (c : Dev nD) : Mat := V m c main_arg2
abbrev yarr (c : Dev nD) : Mat := V m c main_arg1

/-- The blocks of `x`, `W`, `y` staged at point `t`. -/
abbrev xblk (c : Dev nD) (t : Fin cfg0.N) : Vec Ideal S1024x512 .f32 := iblk m c 0 t
abbrev wblk (c : Dev nD) (t : Fin cfg0.N) : Vec Ideal S1024x512 .f32 := iblk m c 1 t
abbrev yblk (c : Dev nD) (t : Fin cfg0.N) : Vec Ideal S1024x512 .f32 := iblk m c 2 t

/-! ## Where each window's block lies -/

/-- The index maps in closed form, decided over the grid's 128 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 32 ∧ win0_3.index t (1 : Fin 2) = t.val / 8 % 4 :=
  (by decide +kernel : ∀ t : Fin grid0.N, _)

theorem lt_N (t : Fin cfg0.N) : t.val < 128 := lt_of_lt_of_eq t.isLt (show cfg0.N = 128 from N_0)

/-- The staged block of `x` at point `t`: rows from `1024·(t/32)`, columns from `512·(t%8)`. -/
theorem xblk_apply (c : Dev nD) (t : Fin cfg0.N) (p : Fin 1024) (k : Fin 512) :
    xblk m c t (ix2 p k) = ent (xarr m c) (1024 * (t.val / 32) + p.val) (512 * (t.val % 8) + k.val) := by
  obtain ⟨e0, e1, -⟩ := idx_facts t
  have hN := lt_N t
  rw [Cert.Spec.ent_of_lt _ (by omega) (by omega)]
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 1024 + 1 * p.val = 1024 * (t.val / 32) + p.val; omega
  | ⟨1, _⟩ => show win0_0.index t (1 : Fin 2) * 512 + 1 * k.val = 512 * (t.val % 8) + k.val; omega

/-- The staged block of `W` at point `t`: rows from `1024·(t/8 % 4)`, columns from `512·(t%8)`. -/
theorem wblk_apply (c : Dev nD) (t : Fin cfg0.N) (p : Fin 1024) (k : Fin 512) :
    wblk m c t (ix2 p k) = ent (warr m c) (1024 * (t.val / 8 % 4) + p.val) (512 * (t.val % 8) + k.val) := by
  obtain ⟨-, -, e0, e1, -⟩ := idx_facts t
  have hN := lt_N t
  rw [Cert.Spec.ent_of_lt _ (by omega) (by omega)]
  show V m c main_arg2 (((cfg0.win 1).blk t).view.emb (ix2 p k)) = V m c main_arg2 _
  refine congrArg (V m c main_arg2) (funext fun a => Fin.ext ?_)
  match a with
  | ⟨0, _⟩ => show win0_1.index t (0 : Fin 2) * 1024 + 1 * p.val = 1024 * (t.val / 8 % 4) + p.val; omega
  | ⟨1, _⟩ => show win0_1.index t (1 : Fin 2) * 512 + 1 * k.val = 512 * (t.val % 8) + k.val; omega

/-- The staged block of `y` at point `t`: the same rows and columns as `W`'s. -/
theorem yblk_apply (c : Dev nD) (t : Fin cfg0.N) (p : Fin 1024) (k : Fin 512) :
    yblk m c t (ix2 p k) = ent (yarr m c) (1024 * (t.val / 8 % 4) + p.val) (512 * (t.val % 8) + k.val) := by
  obtain ⟨-, -, -, -, e0, e1, -⟩ := idx_facts t
  have hN := lt_N t
  rw [Cert.Spec.ent_of_lt _ (by omega) (by omega)]
  show V m c main_arg1 (((cfg0.win 2).blk t).view.emb (ix2 p k)) = V m c main_arg1 _
  refine congrArg (V m c main_arg1) (funext fun a => Fin.ext ?_)
  match a with
  | ⟨0, _⟩ => show win0_2.index t (0 : Fin 2) * 1024 + 1 * p.val = 1024 * (t.val / 8 % 4) + p.val; omega
  | ⟨1, _⟩ => show win0_2.index t (1 : Fin 2) * 512 + 1 * k.val = 512 * (t.val % 8) + k.val; omega

/-! ## What a point adds to each running sum -/

/-- Point `n`'s addend to the block of partial products, at an index of the block. -/
def prodAdd (c : Dev nD) (n : ℕ) (j : S1024x1024.Idx) : EReal :=
  ∑ k ∈ Finset.range 512, ent (xarr m c) (1024 * (n / 32) + (j 0).val) (512 * (n % 8) + k)
    * ent (warr m c) (1024 * (n / 8 % 4) + (j 1).val) (512 * (n % 8) + k)

/-- Point `n`'s addend to the row of partial row sums, at an index of the row. -/
def rowAdd (c : Dev nD) (n : ℕ) (j : S1x1024.Idx) : EReal :=
  ∑ k ∈ Finset.range 512, ent (yarr m c) (1024 * (n / 8 % 4) + (j 1).val) (512 * (n % 8) + k)
    * ent (warr m c) (1024 * (n / 8 % 4) + (j 1).val) (512 * (n % 8) + k)

/-- The block update at point `t` adds `prodAdd` to what the block held. -/
theorem prod_step_at (c : Dev nD) (t : Fin cfg0.N) (P : Vec Ideal S1024x1024 .f32) (j : S1024x1024.Idx) :
    k0_pay3 (xblk m c t) (wblk m c t) P j = P j + prodAdd m c t.val j := by
  obtain ⟨p, q, rfl⟩ : ∃ (p : Fin 1024) (q : Fin 1024), j = ix2 p q := ⟨j 0, j 1, eq_ix2 j⟩
  refine (Pay.prod_step (xblk m c t) (wblk m c t) P p q).trans ?_
  refine congrArg (P (ix2 p q) + ·) ?_
  unfold prodAdd
  rw [Finset.sum_range]
  refine Finset.sum_congr rfl fun k _ => ?_
  rw [xblk_apply, wblk_apply]

/-- The row update at point `t` adds `rowAdd` to what the row held. -/
theorem row_step_at (c : Dev nD) (t : Fin cfg0.N) (R : Vec Ideal S1x1024 .f32) (j : S1x1024.Idx) :
    k0_pay4 (wblk m c t) (yblk m c t) R j = R j + rowAdd m c t.val j := by
  obtain ⟨z, q, rfl⟩ : ∃ (z : Fin 1) (q : Fin 1024), j = ix2 z q := ⟨j 0, j 1, eq_ix2 j⟩
  obtain rfl : z = 0 := Subsingleton.elim _ _
  refine (Pay.row_step (wblk m c t) (yblk m c t) R q).trans ?_
  refine congrArg (R (ix2 (0 : Fin 1) q) + ·) ?_
  unfold rowAdd
  rw [Finset.sum_range]
  refine Finset.sum_congr rfl fun k _ => ?_
  rw [yblk_apply, wblk_apply]

/-! ## The two running sums after each point -/

/-- At the first point of a run the block is cleared and the point's addend added. -/
theorem block_reset (c : Dev nD) (n : ℕ) (hb : n < cfg0.N) (h0 : n % 8 = 0) (acc : Vec Ideal S1024x1024 .f32)
    (j : S1024x1024.Idx) : scAt0_0 m c n hb acc j = 0 + prodAdd m c n j := by
  have h1 : ¬n % 8 = 7 := by omega
  unfold scAt0_0
  rw [dif_pos h0, dif_neg h1, Pieces.prodA]
  refine (prod_step_at m c ⟨n, hb⟩ _ j).trans ?_
  rw [Pay.cleared_block]

/-- At every other point the point's addend is added to what the point before left. -/
theorem block_step (c : Dev nD) (n : ℕ) (hb : n < cfg0.N) (h0 : ¬n % 8 = 0) (acc : Vec Ideal S1024x1024 .f32)
    (j : S1024x1024.Idx) : scAt0_0 m c n hb acc j = acc j + prodAdd m c n j := by
  unfold scAt0_0
  rw [dif_neg h0]
  by_cases h1 : n % 8 = 7
  · rw [dif_pos h1, Pieces.prodC]; exact prod_step_at m c ⟨n, hb⟩ acc j
  · rw [dif_neg h1, Pieces.prodB]; exact prod_step_at m c ⟨n, hb⟩ acc j

/-- The same for the row. -/
theorem row_reset (c : Dev nD) (n : ℕ) (hb : n < cfg0.N) (h0 : n % 8 = 0) (acc : Vec Ideal S1x1024 .f32)
    (j : S1x1024.Idx) : scAt0_1 m c n hb acc j = 0 + rowAdd m c n j := by
  have h1 : ¬n % 8 = 7 := by omega
  unfold scAt0_1
  rw [dif_pos h0, dif_neg h1, Pieces.rowA]
  refine (row_step_at m c ⟨n, hb⟩ _ j).trans ?_
  rw [Pay.cleared_row]

theorem row_step (c : Dev nD) (n : ℕ) (hb : n < cfg0.N) (h0 : ¬n % 8 = 0) (acc : Vec Ideal S1x1024 .f32)
    (j : S1x1024.Idx) : scAt0_1 m c n hb acc j = acc j + rowAdd m c n j := by
  unfold scAt0_1
  rw [dif_neg h0]
  by_cases h1 : n % 8 = 7
  · rw [dif_pos h1, Pieces.rowC]; exact row_step_at m c ⟨n, hb⟩ acc j
  · rw [dif_neg h1, Pieces.rowB]; exact row_step_at m c ⟨n, hb⟩ acc j

/-- The block of partial products after point `t`: zero plus the addends of the run's points up to `t`. -/
theorem block_at (c : Dev nD) (t : Fin cfg0.N) (j : S1024x1024.Idx) :
    (outsAt0 m c t.val t.isLt).2.1 j
      = 0 + ∑ s ∈ Finset.range (t.val % 8 + 1), prodAdd m c (8 * (t.val / 8) + s) j := by
  refine (congrFun (soutsAt0_0_eq m c t) j).trans ?_
  exact Pipeline.accAt_add_apply _ _ (fun _ => 0) (prodAdd m c) (8 * (t.val / 8)) 7
    (fun h i => block_reset m c _ h (by omega) _ i)
    (fun n h acc i hlo hhi => block_step m c n h (by omega) acc i)
    (t.val % 8) (by omega) _ j

/-- The row of partial row sums after point `t`. -/
theorem row_at (c : Dev nD) (t : Fin cfg0.N) (j : S1x1024.Idx) :
    (outsAt0 m c t.val t.isLt).2.2 j
      = 0 + ∑ s ∈ Finset.range (t.val % 8 + 1), rowAdd m c (8 * (t.val / 8) + s) j := by
  refine (congrFun (soutsAt0_1_eq m c t) j).trans ?_
  exact Pipeline.accAt_add_apply _ _ (fun _ => 0) (rowAdd m c) (8 * (t.val / 8)) 7
    (fun h i => row_reset m c _ h (by omega) _ i)
    (fun n h acc i hlo hhi => row_step m c n h (by omega) acc i)
    (t.val % 8) (by omega) _ j

/-! ## What a run's last point writes back -/

/-- At the last point of a run the output block is formed from the two sums that point has just stored. -/
theorem out_at (c : Dev nD) (t : Fin cfg0.N) (h1 : t.val % 8 = 7) :
    (outsAt0 m c t.val t.isLt).1
      = k0_pay5 ((outsAt0 m c t.val t.isLt).2.1) ((outsAt0 m c t.val t.isLt).2.2) := by
  have h0 : ¬t.val % 8 = 0 := by omega
  rw [outsAt0_C m c t h0 h1]
  dsimp only
  rw [Pieces.outC, Pieces.prodC, Pieces.rowC]

/-- The output block of point `t` lies at rows from `1024·(t/32)`, columns from `1024·(t/8 % 4)`. -/
theorem oblk_emb (t : Fin cfg0.N) (p q : Fin 1024) (hr : 1024 * (t.val / 32) + p.val < 4096)
    (hc : 1024 * (t.val / 8 % 4) + q.val < 4096) :
    ((cfg0.win 3).blk t).view.emb (ix2 p q)
      = ix2 (⟨1024 * (t.val / 32) + p.val, hr⟩ : Fin 4096) (⟨1024 * (t.val / 8 % 4) + q.val, hc⟩ : Fin 4096) := by
  obtain ⟨-, -, -, -, -, -, e0, e1⟩ := idx_facts t
  funext a; apply Fin.ext
  match a with
  | ⟨0, _⟩ => show win0_3.index t (0 : Fin 2) * 1024 + 1 * p.val = 1024 * (t.val / 32) + p.val; omega
  | ⟨1, _⟩ => show win0_3.index t (1 : Fin 2) * 1024 + 1 * q.val = 1024 * (t.val / 8 % 4) + q.val; omega

/-- Over a whole run the block's addends are the eight column blocks of one row of `x` against one row of `W`. -/
theorem block_run (c : Dev nD) (t : Fin cfg0.N) (h1 : t.val % 8 = 7) (p q : Fin 1024) :
    ∑ s ∈ Finset.range (t.val % 8 + 1), prodAdd m c (8 * (t.val / 8) + s) (ix2 p q)
      = ∑ s ∈ Finset.range 8, ∑ k ∈ Finset.range 512,
          ent (xarr m c) (1024 * (t.val / 32) + p.val) (512 * s + k)
            * ent (warr m c) (1024 * (t.val / 8 % 4) + q.val) (512 * s + k) := by
  have hN := lt_N t
  rw [h1]
  refine Finset.sum_congr rfl fun s hs => ?_
  have hs' : s < 8 := Finset.mem_range.mp hs
  unfold prodAdd
  rw [show (8 * (t.val / 8) + s) / 32 = t.val / 32 by omega,
    show (8 * (t.val / 8) + s) / 8 % 4 = t.val / 8 % 4 by omega,
    show (8 * (t.val / 8) + s) % 8 = s by omega]

/-- Over a whole run the row's addends are the eight column blocks of one row of `y` against the same row of `W`. -/
theorem row_run (c : Dev nD) (t : Fin cfg0.N) (h1 : t.val % 8 = 7) (q : Fin 1024) :
    ∑ s ∈ Finset.range (t.val % 8 + 1), rowAdd m c (8 * (t.val / 8) + s) (ix2 (0 : Fin 1) q)
      = ∑ s ∈ Finset.range 8, ∑ k ∈ Finset.range 512,
          ent (yarr m c) (1024 * (t.val / 8 % 4) + q.val) (512 * s + k)
            * ent (warr m c) (1024 * (t.val / 8 % 4) + q.val) (512 * s + k) := by
  have hN := lt_N t
  rw [h1]
  refine Finset.sum_congr rfl fun s hs => ?_
  have hs' : s < 8 := Finset.mem_range.mp hs
  unfold rowAdd
  rw [show (8 * (t.val / 8) + s) / 8 % 4 = t.val / 8 % 4 by omega,
    show (8 * (t.val / 8) + s) % 8 = s by omega]

/-- WHAT THE LAST POINT OF A RUN WRITES BACK is its block of the specification's array. -/
theorem flushed_eq (c : Dev nD) (t : Fin cfg0.N) (h1 : t.val % 8 = 7) :
    (dats m 0 c).flushed 3 t
      = ((cfg0.win 3).blk t).view.read (Elt Ideal) (Cert.Spec.G (xarr m c) (yarr m c) (warr m c)) := by
  have hN := lt_N t
  rw [flushed3]
  funext j
  obtain ⟨p, q, rfl⟩ : ∃ (p : Fin 1024) (q : Fin 1024), j = ix2 p q := ⟨j 0, j 1, eq_ix2 j⟩
  show (outsAt0 m c t.val t.isLt).1 (ix2 p q)
    = Cert.Spec.G (xarr m c) (yarr m c) (warr m c) (((cfg0.win 3).blk t).view.emb (ix2 p q))
  rw [oblk_emb t p q (by omega) (by omega), Cert.Spec.G_apply, out_at m c t h1, Pay.out_apply,
    block_at m c t (ix2 p q), row_at m c t (ix2 (0 : Fin 1) q), block_run m c t h1 p q, row_run m c t h1 q]
  exact Cert.Spec.blocked_eq (xarr m c) (yarr m c) (warr m c) ⟨1024 * (t.val / 32) + p.val, by omega⟩
    ⟨1024 * (t.val / 8 % 4) + q.val, by omega⟩

/-! ## The written blocks tile the output -/

/-- An index of the output is in point `t`'s block iff each coordinate is in the block's range on its axis. -/
theorem mem_oblk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- Every index of the output is in the block some run's last point writes: the run of its row block and column block. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨n, hn⟩ : ∃ n, n = 32 * ((i 0).val / 1024) + 8 * ((i 1).val / 1024) + 7 := ⟨_, rfl⟩
  have hlt : n < cfg0.N := by rw [show cfg0.N = 128 from N_0]; omega
  refine ⟨⟨n, hlt⟩, (flush0_3 _).mpr (by show n % 8 = 7; omega), ?_⟩
  rw [mem_oblk]
  obtain ⟨-, -, -, -, -, -, e0, e1⟩ := idx_facts ⟨n, hlt⟩
  have e0' : win0_3.index ⟨n, hlt⟩ (0 : Fin 2) = n / 32 := e0
  have e1' : win0_3.index ⟨n, hlt⟩ (1 : Fin 2) = n / 8 % 4 := e1
  intro a
  match a with
  | ⟨0, _⟩ =>
    show win0_3.index ⟨n, hlt⟩ (0 : Fin 2) * 1024 ≤ (i 0).val
      ∧ (i 0).val < win0_3.index ⟨n, hlt⟩ (0 : Fin 2) * 1024 + 1024
    omega
  | ⟨1, _⟩ =>
    show win0_3.index ⟨n, hlt⟩ (1 : Fin 2) * 1024 ≤ (i 1).val
      ∧ (i 1).val < win0_3.index ⟨n, hlt⟩ (1 : Fin 2) * 1024 + 1024
    omega

/-! ## The array after the run, and the run -/

/-- THE OUTPUT ARRAY after the run is the specification's function of the argument arrays. -/
theorem final (c : Dev nD) :
    (dats m 0 c).arrAt 3 cfg0.N = Cert.Spec.G (xarr m c) (yarr m c) (warr m c) :=
  (dats m 0 c).arrAt_eq_of_cover 3 (Cert.Spec.G (xarr m c) (yarr m c) (warr m c))
    (fun t hf => flushed_eq m c t ((flush0_3 t).mp hf)) cover

/-- Every weakly fair execution ends with the result array at the specification's function of the arguments, the
    arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefIdeal.lean ====
/-
  The reference's result is the specification.

  Read one operation at a time, the reference computes at `(r, c)`: the contraction `Σ k, x (r, k) · W (c, k)`; the sum of
  row `c` of `y∘W`, started from zero and spread over every row `r`; their difference; its negation. That is the
  specification's value, term for term.
-/
import proofs.«149680_j66468913872924_1_alg».proof.Proof.Gen.ReferenceIdeal.Read
import proofs.«149680_j66468913872924_1_alg».proof.Proof.Spec

noncomputable section

namespace Cert.ReferenceIdeal.RefValue

open Cert.ReferenceIdeal Cert.ReferenceIdeal.Read Idealize.ShloMosaic Idealize.ShloMosaic.TcCoe Idealize.ShloMosaic.ValueIdx
open Cert.Spec (Mat)

/-- The contraction reads the left operand along row `r` … -/
theorem lidx_eq (r c k : Fin 4096) : lidx_main_v0 (ix2 r c) k = ix2 r k :=
  funext fun a => Fin.ext (by match a with | ⟨0, _⟩ => rfl | ⟨1, _⟩ => rfl)

/-- … and the right operand along row `c`. -/
theorem ridx_eq (r c k : Fin 4096) : ridx_main_v0 (ix2 r c) k = ix2 c k :=
  funext fun a => Fin.ext (by match a with | ⟨0, _⟩ => rfl | ⟨1, _⟩ => rfl)

/-- The row sum spread over the rows is read, at `(r, c)`, along row `c` of its operand. -/
theorem sidx_eq (r c k : Fin 4096) : idx_main_v2 (idx_main_v3 (idx_main_v4 (ix2 r c))) k = ix2 c k :=
  funext fun a => Fin.ext (by match a with | ⟨0, _⟩ => rfl | ⟨1, _⟩ => rfl)

/-- The reference's last stage is the specification's function of the arguments. -/
theorem result_eq (x y W : Mat) : val_main_v6 (F := Ideal) x y W = Cert.Spec.G x y W := by
  funext i
  obtain ⟨r, c, rfl⟩ : ∃ (r : Fin 4096) (c : Fin 4096), i = ix2 r c := ⟨i 0, i 1, eq_ix2 i⟩
  rw [Cert.Spec.G_apply, val_main_v6_apply, val_main_v5_apply, val_main_v0_apply, val_main_v4_apply,
    val_main_v3_apply, val_main_v2_apply]
  simp only [lidx_eq, ridx_eq, sidx_eq, val_main_v1_apply, val_main_cst_apply, Ideal.hostNegf_def, Ideal.negf_def,
    Ideal.subf_def, Ideal.mulf_def, Ideal.ofBits_def, Ideal.ofBits_zero_f32, zero_add, Cert.Spec.Gat]

end Cert.ReferenceIdeal.RefValue

end
-- ==== Proof.lean ====
/-
  Both programs take square arrays `x`, `y`, `W` of side 4096 and return the array whose entry at `(r, c)` is

      - ( Σ k, x (r, k) · W (c, k)  -  Σ k, y (c, k) · W (c, k) ).

  The reference forms the contraction and the row sums whole, subtracts and negates. The kernel walks a 4·4·8 grid:
  for each 1024×1024 output block it accumulates, over eight column blocks of 512, the block of partial products of
  `x` with the transpose of `W` and (as a product with a row of ones) the row of partial row sums of `y∘W`, both from
  zero, and at the eighth step writes zero minus their difference. On the extended reals regrouping a finite sum,
  adding zero, multiplying by one and `0 - z = -z` hold without exception, so the two results agree entry by entry with
  no use of the inputs' finiteness (`Cert.Spec.blocked_eq`). Narrowing a factor's float format is the identity on ideal
  values, so the kernel's narrowed factors are the entries themselves.

  The three frames are the generated ones (the reference's is its generated run with the result dropped); the
  idealization rewrote nothing, so `preserves` is `True`; the value claim sets the kernel's run
  (`Cert.KernelIdeal.Final.run`: the result array is `Cert.Spec.G` of the arguments) beside the reference's generated
  run, whose term is the same function (`Cert.ReferenceIdeal.RefValue.result_eq`).
-/
import proofs.«149680_j66468913872924_1_alg».proof.Defs
import proofs.«149680_j66468913872924_1_alg».proof.Proof.Gen.Kernel
import proofs.«149680_j66468913872924_1_alg».proof.Proof.Gen.Kernel.Skeleton
import proofs.«149680_j66468913872924_1_alg».proof.Proof.Gen.Kernel.Launch
import proofs.«149680_j66468913872924_1_alg».proof.Proof.Gen.Kernel.Points
import proofs.«149680_j66468913872924_1_alg».proof.Proof.Gen.Kernel.Frame
import proofs.«149680_j66468913872924_1_alg».proof.Proof.Gen.KernelIdeal
import proofs.«149680_j66468913872924_1_alg».proof.Proof.Gen.KernelIdeal.Skeleton
import proofs.«149680_j66468913872924_1_alg».proof.Proof.Gen.KernelIdeal.Launch
import proofs.«149680_j66468913872924_1_alg».proof.Proof.Gen.KernelIdeal.Points
import proofs.«149680_j66468913872924_1_alg».proof.Proof.Gen.KernelIdeal.Frame
import proofs.«149680_j66468913872924_1_alg».proof.Proof.Gen.ReferenceIdeal
import proofs.«149680_j66468913872924_1_alg».proof.Proof.Gen.Pre_finite_inputs
import proofs.«149680_j66468913872924_1_alg».proof.Proof.Gen.KernelIdeal.Value
import proofs.«149680_j66468913872924_1_alg».proof.Proof.Gen.ReferenceIdeal.Run
import proofs.«149680_j66468913872924_1_alg».proof.Proof.Gen.ReferenceIdeal.Read
import proofs.«149680_j66468913872924_1_alg».proof.Proof.ValueIdeal
import proofs.«149680_j66468913872924_1_alg».proof.Proof.RefIdeal
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on `x`, `y`, `W` both idealized programs end with the result array at the specification's
    function of those arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v6_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
